-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel

variable [Facts]

def fn {F : FTy → Type} [FloatOps F] (main_arg0 : FVec F S8x4096x256 .f32) (main_arg1 : FVec F S8x4096x256 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x4096x256 .f32 := Host.absf main_arg1
  let main_cst_0 : FVec F S_ .f32 := constant S_ .f32 0x7F800000#32
  let main_v5 : FVec F S8x4096x256 .f32 := broadcastInDim S8x4096x256 ![] bcast_S_S8x4096x256 main_cst_0
  let main_v6 : IVec S8x4096x256 1 := cmpf .olt main_v4 main_v5
  let main_c_1 : IVec S_ 1 := constantI S_ 1 1#1
  let main_v7 : IVec S_ 1 := (fun x v => Host.reduce IntOp.andi x v reducesTo_S8x4096x256_S_d0_1_2 h_S_) main_v6 main_c_1
  let main_v8 : IVec S_ 1 := andi main_v3 main_v7
  main_v8
-- ==== Kernel.lean ====
abbrev S8x4096x256 : Shape := ⟨3, ![8, 4096, 256]⟩
abbrev S1x4096x256 : Shape := ⟨3, ![1, 4096, 256]⟩
abbrev S1x512x256 : Shape := ⟨3, ![1, 512, 256]⟩
abbrev S4096x256 : Shape := ⟨2, ![4096, 256]⟩
abbrev S512x256 : Shape := ⟨2, ![512, 256]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x256, .bf16⟩
  | .hbm, ⟨3, _⟩ => ⟨S8x4096x256, .bf16⟩
  | .hbm, ⟨4, _⟩ => ⟨S8x4096x256, .f32⟩
  | .local _ .vmem, ⟨0, _⟩ => ⟨S1x4096x256, .bf16⟩
  | .local _ .vmem, ⟨1, _⟩ => ⟨S1x4096x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x256, .f32⟩
  | .local _ .vmem, ⟨5, _⟩ => ⟨S1x512x256, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  reduces_S512x4096_S512 : S512x4096.Reduces [1] S512
  shapeCasts_S512_S512x1 : S512.ShapeCasts S512x1
  broadcasts_S512x1_S512x4096 : S512x1.Broadcasts S512x4096
  broadcasts_S512x1_S512x256 : S512x1.Broadcasts S512x256
  shapeCasts_S512x256_S1x512x256 : S512x256.ShapeCasts S1x512x256
  dot_S512x256_S4096x256_S512x4096_1_1_0_0_n_n_wf : DotDims.WF S512x256 S4096x256 S512x4096 [1] [1] [0] [0] [] []
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S8x4096x256.size a
  hwx0_0 : ∀ i : grid0.Coords, EltTy.bits .bf16 = 32 ∨ (Rect.block (s := S8x4096x256) S1x4096x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S8x4096x256.size a
  hwx0_1 : ∀ i : grid0.Coords, EltTy.bits .bf16 = 32 ∨ (Rect.block (s := S8x4096x256) S1x512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x256.size a ≤ S8x4096x256.size a
  hwx0_2 : ∀ i : grid0.Coords, EltTy.bits .f32 = 32 ∨ (Rect.block (s := S8x4096x256) S1x512x256.size (cc0_transform_2 i) (hinb0_2 i)).WholeWords (EltTy.packing .f32)

variable [Facts₀]

def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_v0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x256 : Shape := ⟨3, ![8, 4096, 256]⟩
abbrev S8x4096x4096 : Shape := ⟨3, ![8, 4096, 4096]⟩
abbrev S_ : Shape := ⟨0, ![]⟩
abbrev S8x4096 : Shape := ⟨2, ![8, 4096]⟩
abbrev S8x1x4096 : Shape := ⟨3, ![8, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x4096, .f32⟩
  | .hbm, ⟨3, _⟩ => ⟨S_, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S8x1x4096, .f32⟩
  | .hbm, ⟨9, _⟩ => ⟨S8x4096x4096, .f32⟩
  | .hbm, ⟨10, _⟩ => ⟨S8x4096x4096, .f32⟩
  | .hbm, ⟨11, _⟩ => ⟨S8x4096x4096, .f32⟩
  | .hbm, ⟨12, _⟩ => ⟨S_, .f32⟩
  | .hbm, ⟨13, _⟩ => ⟨S8x4096, .f32⟩
  | .hbm, ⟨14, _⟩ => ⟨S8x1x4096, .f32⟩
  | .hbm, ⟨15, _⟩ => ⟨S8x4096x4096, .f32⟩
  | .hbm, ⟨16, _⟩ => ⟨S8x4096x4096, .f32⟩
  | .hbm, ⟨17, _⟩ => ⟨S8x4096x256, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8x4096x4096_S8x4096_d1 : S8x4096x4096.ReducesTo [1] S8x4096
  h_S_ : 0 < S_.numel
  bcast_S_S8x4096 : S_.BroadcastsInDim S8x4096 (![] : Fin 0 → Fin S8x4096.rank)
  bcast_S8x4096_S8x1x4096_0_2 : S8x4096.BroadcastsInDim S8x1x4096 (![0, 2] : Fin 2 → Fin S8x1x4096.rank)
  bcast_S8x1x4096_S8x4096x4096_0_1_2 : S8x1x4096.BroadcastsInDim S8x4096x4096 (![0, 1, 2] : Fin 3 → Fin S8x4096x4096.rank)
  dot_S8x4096x256_S8x4096x256_S8x4096x4096_2_2_1_1_0_0_wf : DotDims.WF S8x4096x256 S8x4096x256 S8x4096x4096 [2] [2] [1] [1] [0] [0]
  dot_S8x4096x4096_S8x4096x256_S8x4096x256_1_1_2_2_0_0_wf : DotDims.WF S8x4096x4096 S8x4096x256 S8x4096x256 [1] [1] [2] [2] [0] [0]

variable [Facts₀]

def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf
def dot_S8x4096x4096_S8x4096x256_S8x4096x256_1_1_2_2_0_0 : DotDims S8x4096x4096 S8x4096x256 S8x4096x256 where
  lhsContracting := [1]
  rhsContracting := [1]
  lhsNonContracting := [2]
  rhsNonContracting := [2]
  lhsBatch := [0]
  rhsBatch := [0]
  wf := dot_S8x4096x4096_S8x4096x256_S8x4096x256_1_1_2_2_0_0_wf

class Facts : Prop extends Facts₀ where

variable [Facts]
-- ==== Proof.LibSoftmaxRow.lean ====
/-
  Laws of the extended reals behind one row of attention weights.

  A row of scores `s` becomes weights in two forms. One form takes the row maximum `M` from a start value `b`,
  exponentiates `s k - M`, sums the row to `l`, and multiplies each exponential by the reciprocal `1 / l`. The
  other form takes the maximum of `b` and `M` again, adds the row sum to a zero, and divides each exponential by
  that. On the extended reals a division by zero is not a product with an inverse, so the two forms agree once
  `l` is not zero: when every score of the row is a real number and `b` is not plus infinity, `M` is not plus
  infinity, every `s k - M` is above minus infinity, every exponential is positive, and so is their sum.

  The score itself meets the same pair of forms: a nonnegative real factor on one operand of every product of a
  contraction comes out of the sum, on all extended reals, because a product with a nonnegative real
  distributes over any sum.
-/
import Idealize.ShloMosaic.PureOps.Ideal
import Mathlib.Data.Finset.Fold

noncomputable section

namespace Cert.RowLaws

open Idealize.ShloMosaic

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor on the left operand of each product comes out of a finite sum of products. -/
theorem sum_scaled_mul {ι : Type} (s : Finset ι) (a b : ι → EReal) (c : ℝ) (hc : 0 ≤ c) :
    ∑ i ∈ s, (a i * (c : EReal)) * b i = (∑ i ∈ s, a i * b i) * (c : EReal) := by
  classical
  induction s using Finset.induction_on with
  | empty => simp
  | insert x s hx ih =>
    rw [Finset.sum_insert hx, Finset.sum_insert hx, ih,
      EReal.right_distrib_of_nonneg_of_ne_top (EReal.coe_nonneg.mpr hc) (EReal.coe_ne_top c), mul_right_comm]

/-- The exponential of an extended real is never negative. -/
theorem exp_nonneg (x : EReal) : 0 ≤ Ideal.exp x := by
  induction x using EReal.rec with
  | bot => rw [Ideal.exp_bot]
  | coe r => rw [Ideal.exp_coe]; exact EReal.coe_nonneg.mpr (Real.exp_pos r).le
  | top => rw [Ideal.exp_top]; exact le_top

/-- Above minus infinity it is positive. -/
theorem exp_pos {x : EReal} (h : x ≠ ⊥) : 0 < Ideal.exp x := by
  induction x using EReal.rec with
  | bot => exact absurd rfl h
  | coe r => rw [Ideal.exp_coe]; exact EReal.coe_pos.mpr (Real.exp_pos r)
  | top => rw [Ideal.exp_top]; exact EReal.zero_lt_top

variable {n : ℕ}

/-- The maximum of a row, folded from a start value. -/
def rowMax (b : EReal) (s : Fin n → EReal) : EReal := (Finset.univ : Finset (Fin n)).fold max b s

theorem start_le_rowMax (b : EReal) (s : Fin n → EReal) : b ≤ rowMax b s :=
  (Finset.le_fold_max b).mpr (Or.inl le_rfl)

/-- A row of values below plus infinity, from a start below plus infinity, has its maximum below plus infinity. -/
theorem rowMax_ne_top (b : EReal) (s : Fin n → EReal) (hb : b ≠ ⊤) (hs : ∀ k, s k ≠ ⊤) : rowMax b s ≠ ⊤ := by
  have h : rowMax b s < ⊤ :=
    (Finset.fold_max_lt ⊤).mpr ⟨lt_top_iff_ne_top.mpr hb, fun k _ => lt_top_iff_ne_top.mpr (hs k)⟩
  exact h.ne

/-- THE ROW LAW: for a row of real scores the weight as exponential times the reciprocal of the row sum is the
    weight as exponential over the row sum, the second form with its maximum taken once more against the start
    value and its sum started from zero. -/
theorem weights_eq (b one zero : EReal) (hb : b ≠ ⊤) (h1 : one = 1) (h0 : zero = 0)
    (s : Fin n → EReal) (hs : ∀ k, s k ≠ ⊥ ∧ s k ≠ ⊤) (k : Fin n) :
    Ideal.exp (s k - rowMax b s) * Ideal.div one (∑ k', Ideal.exp (s k' - rowMax b s))
      = Ideal.div (Ideal.exp (s k - max b (rowMax b s))) (zero + ∑ k', Ideal.exp (s k' - max b (rowMax b s))) := by
  subst h1 h0
  rw [max_eq_right (start_le_rowMax b s), zero_add]
  have hM := rowMax_ne_top b s hb (fun k => (hs k).2)
  have hne : ∀ k', s k' - rowMax b s ≠ ⊥ := fun k' h => by
    rw [sub_eq_add_neg] at h
    rcases EReal.add_eq_bot_iff.mp h with h | h
    · exact (hs k').1 h
    · exact hM (EReal.neg_eq_bot_iff.mp h)
  have hl : (∑ k', Ideal.exp (s k' - rowMax b s)) ≠ 0 := by
    have hpos : 0 < ∑ k', Ideal.exp (s k' - rowMax b s) :=
      lt_of_lt_of_le (exp_pos (hne k))
        (Finset.single_le_sum (f := fun k' => Ideal.exp (s k' - rowMax b s)) (fun i _ => exp_nonneg _) (Finset.mem_univ k))
    exact hpos.ne'
  unfold Ideal.div
  rw [if_neg hl, if_neg hl, one_mul]

end Cert.RowLaws

end
-- ==== Proof.LibAttnRow.lean ====
/-
  One decoder row of encoder-decoder attention, on the extended reals.

  A decoder row `q` (a vector of `dm` entries) is scored against each of the `n` encoder rows `E k` by the
  inner product; the scores become softmax weights over the encoder rows, and the result is the weighted sum of
  the encoder rows.  Two spellings of that result are set side by side:

  * `rowOut`: the weights are left unnormalised, `exp (s k - M)` with `M` the row maximum, the weighted sum of
    the encoder rows is taken first, and the sum is multiplied ONCE by the reciprocal `one / l` of the row sum
    `l = ∑ exp (s k - M)`;
  * `rowRef`: every weight is normalised first, `exp (s k - max b M) / (zero + l)`, the maximum taken once more
    against the start value `b` of the fold and the sum started from `zero`, the score's products written the
    other way round, and the normalised weights are summed against the encoder rows.

  They agree when every entry is a real number: then every score is real, every `exp (s k - M)` is positive, the
  row sum `l` is positive, its reciprocal is a nonnegative real, and a nonnegative real factor comes out of a
  finite sum of products on the extended reals.
-/
import proofs.«427247_j67525475828089_3_alg».proof.Proof.LibSoftmaxRow
import Mathlib.Data.EReal.Inv

noncomputable section

namespace Cert.Attn

open Idealize.ShloMosaic Cert.RowLaws

/-- An extended real that is neither infinity. -/
def IsReal (x : EReal) : Prop := x ≠ ⊥ ∧ x ≠ ⊤

theorem isReal_coe (r : ℝ) : IsReal (r : EReal) := ⟨EReal.coe_ne_bot r, EReal.coe_ne_top r⟩

theorem IsReal.coe_toReal {x : EReal} (h : IsReal x) : ((x.toReal : ℝ) : EReal) = x := EReal.coe_toReal h.2 h.1

variable {n dm : ℕ}

/-- A finite sum of products of real entries is real. -/
theorem isReal_sum_mul (a b : Fin dm → EReal) (ha : ∀ d, IsReal (a d)) (hb : ∀ d, IsReal (b d)) :
    IsReal (∑ d, a d * b d) := by
  have e : ∑ d, a d * b d = ((∑ d, (a d).toReal * (b d).toReal : ℝ) : EReal) := by
    rw [coe_sum]
    refine Finset.sum_congr rfl fun d _ => ?_
    rw [EReal.coe_mul, (ha d).coe_toReal, (hb d).coe_toReal]
  rw [e]
  exact isReal_coe _

/-- The scores of one decoder row `q` against every encoder row: `s k = ∑ d, q d * E k d`. -/
def scores (E : Fin n → Fin dm → EReal) (q : Fin dm → EReal) (k : Fin n) : EReal := ∑ d, q d * E k d

/-- The same with each product written the other way round. -/
def scoresT (E : Fin n → Fin dm → EReal) (q : Fin dm → EReal) (k : Fin n) : EReal := ∑ d, E k d * q d

theorem scoresT_eq (E : Fin n → Fin dm → EReal) (q : Fin dm → EReal) : scoresT E q = scores E q :=
  funext fun k => Finset.sum_congr rfl fun d _ => mul_comm _ _

theorem isReal_scores (E : Fin n → Fin dm → EReal) (q : Fin dm → EReal) (hE : ∀ k d, IsReal (E k d))
    (hq : ∀ d, IsReal (q d)) (k : Fin n) : IsReal (scores E q k) :=
  isReal_sum_mul q (E k) hq (hE k)

/-- The unnormalised weight of encoder row `k`: the exponential of its score less the row maximum. -/
def expw (b : EReal) (s : Fin n → EReal) (k : Fin n) : EReal := Ideal.exp (s k - rowMax b s)

/-- The result with the normalisation applied once, after the weighted sum. -/
def rowOut (b one : EReal) (E : Fin n → Fin dm → EReal) (q : Fin dm → EReal) (d : Fin dm) : EReal :=
  (∑ k, expw b (scores E q) k * E k d) * Ideal.div one (∑ k, expw b (scores E q) k)

/-- The result with every weight normalised first. -/
def rowRef (b zero : EReal) (E : Fin n → Fin dm → EReal) (q : Fin dm → EReal) (d : Fin dm) : EReal :=
  ∑ k, Ideal.div (Ideal.exp (scoresT E q k - max b (rowMax b (scoresT E q))))
      (zero + ∑ k', Ideal.exp (scoresT E q k' - max b (rowMax b (scoresT E q)))) * E k d

/-- For a row of real scores folded from a start below plus infinity the sum of the unnormalised weights is
    positive: no score less the maximum is minus infinity, so every weight is positive. -/
theorem rowSum_pos (b : EReal) (hb : b ≠ ⊤) (s : Fin n → EReal) (hs : ∀ k, IsReal (s k)) (k0 : Fin n) :
    0 < ∑ k, expw b s k := by
  have hM := rowMax_ne_top b s hb (fun k => (hs k).2)
  have hne : s k0 - rowMax b s ≠ ⊥ := fun h => by
    rw [sub_eq_add_neg] at h
    rcases EReal.add_eq_bot_iff.mp h with h | h
    · exact (hs k0).1 h
    · exact hM (EReal.neg_eq_bot_iff.mp h)
  exact lt_of_lt_of_le (exp_pos hne)
    (Finset.single_le_sum (f := fun k => expw b s k) (fun i _ => exp_nonneg _) (Finset.mem_univ k0))

/-- The reciprocal of a positive extended real, as the one-over-`l` the result is multiplied by, is a
    nonnegative real number. -/
theorem div_one_pos_eq_coe {l : EReal} (hl : 0 < l) :
    ∃ c : ℝ, 0 ≤ c ∧ Ideal.div 1 l = (c : EReal) := by
  have e : Ideal.div 1 l = l⁻¹ := by unfold Ideal.div; rw [if_neg hl.ne', one_mul]
  have h0 : 0 ≤ l⁻¹ := EReal.inv_nonneg_of_nonneg hl.le
  have hr : IsReal l⁻¹ := ⟨fun h => by rw [h] at h0; exact absurd h0 (by simp), (EReal.inv_lt_top l).ne⟩
  refine ⟨(l⁻¹).toReal, EReal.toReal_nonneg h0, ?_⟩
  rw [e, hr.coe_toReal]

/-- THE ROW LAW: on real entries, normalising once after the weighted sum is normalising every weight first. -/
theorem rowOut_eq_rowRef (b one zero : EReal) (hb : b ≠ ⊤) (h1 : one = 1) (h0 : zero = 0)
    (E : Fin n → Fin dm → EReal) (q : Fin dm → EReal) (hE : ∀ k d, IsReal (E k d)) (hq : ∀ d, IsReal (q d))
    (k0 : Fin n) (d : Fin dm) : rowOut b one E q d = rowRef b zero E q d := by
  have hs := isReal_scores E q hE hq
  obtain ⟨c, hc, ec⟩ := div_one_pos_eq_coe (rowSum_pos b hb (scores E q) hs k0)
  unfold rowOut rowRef
  rw [scoresT_eq]
  have ew : ∀ k, Ideal.div (Ideal.exp (scores E q k - max b (rowMax b (scores E q))))
      (zero + ∑ k', Ideal.exp (scores E q k' - max b (rowMax b (scores E q))))
      = expw b (scores E q) k * (c : EReal) := fun k => by
    rw [← weights_eq b one zero hb h1 h0 (scores E q) hs k, h1]
    exact congrArg (_ * ·) ec
  simp only [ew]
  rw [sum_scaled_mul _ _ _ c hc, h1, ec]

end Cert.Attn

end
-- ==== Proof.Words.lean ====
/-
  The three float words the two programs spell out, as extended reals: minus infinity (the start of both
  maxima), zero (the start of the reference's sum) and one (the numerator of the kernel's reciprocal).
-/
import Idealize.ShloMosaic.Lib.IdealHost
import Idealize.ShloMosaic.PureOps.Ideal.Laws

noncomputable section

namespace Cert.Attn

open Idealize.ShloMosaic

/-- The pattern of minus infinity. -/
abbrev negInf : EReal := Ideal.ofBits .f32 0xFF800000#32
/-- The pattern of zero. -/
abbrev zeroW : EReal := Ideal.ofBits .f32 0x00000000#32
/-- The pattern of one. -/
abbrev oneW : EReal := Ideal.ofBits .f32 0x3F800000#32

theorem negInf_eq : negInf = ⊥ := by simp [Ideal.ofBits, Ideal.ieee]
theorem negInf_ne_top : negInf ≠ ⊤ := by rw [negInf_eq]; exact bot_ne_top
theorem zeroW_eq : zeroW = 0 := Ideal.ofBits_zero_f32
theorem oneW_eq : oneW = 1 := Ideal.ofBits_one_f32

end Cert.Attn

end
-- ==== Proof.KernelBlock.lean ====
/-
  What one grid point of the kernel computes, read at an index.

  The body holds a whole batch's encoder rows `x0` (a [1, 4096, 256] block) and 512 decoder rows `x1` (a
  [1, 512, 256] block).  It scores every decoder row `q` against every encoder row `k` (a matrix product
  contracting the 256 features), takes each row's maximum from minus infinity, exponentiates score less
  maximum, sums each row's exponentials, multiplies the exponentials into the encoder rows (a second matrix
  product, contracting the 4096 encoder rows) and multiplies the product's row `q` by one over the row's sum.
  At index `(0, q, d)` of the stored block that is `Cert.Attn.rowOut` of the block's encoder rows and decoder
  row `q`.  The changes of float format on the way are the identity on the extended reals.
-/
import proofs.«427247_j67525475828089_3_alg».proof.Proof.Gen.KernelIdeal.Skeleton
import proofs.«427247_j67525475828089_3_alg».proof.Proof.LibAttnRow
import proofs.«427247_j67525475828089_3_alg».proof.Proof.Words
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen
open Idealize.ShloMosaic Idealize.ShloMosaic.ValueIdx Cert.Attn Cert.RowLaws

/-! ## The layout operations of the body, each at an index -/

section Layout
variable {α : Type}

/-- The encoder block seen as a matrix: row `k`, feature `d` is entry `(0, k, d)`. -/
theorem encMatrix_apply (v : S1x4096x256.Idx → α) (k : Fin 4096) (d : Fin 256) :
    shapeCast S4096x256 v shapeCasts_S1x4096x256_S4096x256 (ix2 k d) = v (ix3 (0 : Fin 1) k d) :=
  shapeCast_apply v _ (ix2 k d) (ix3 (0 : Fin 1) k d) (by
    rw [Shape.rowMajor_val_three, Shape.rowMajor_val_two]
    show ((0 : ℕ) * 4096 + k.val) * 256 + d.val = k.val * 256 + d.val
    omega)

/-- The decoder block seen as a matrix. -/
theorem decMatrix_apply (v : S1x512x256.Idx → α) (q : Fin 512) (d : Fin 256) :
    shapeCast S512x256 v shapeCasts_S1x512x256_S512x256 (ix2 q d) = v (ix3 (0 : Fin 1) q d) :=
  shapeCast_apply v _ (ix2 q d) (ix3 (0 : Fin 1) q d) (by
    rw [Shape.rowMajor_val_three, Shape.rowMajor_val_two]
    show ((0 : ℕ) * 512 + q.val) * 256 + d.val = q.val * 256 + d.val
    omega)

/-- The result matrix stored as a block with a leading unit axis. -/
theorem outBlock_apply (v : S512x256.Idx → α) (q : Fin 512) (d : Fin 256) :
    shapeCast S1x512x256 v shapeCasts_S512x256_S1x512x256 (ix3 (0 : Fin 1) q d) = v (ix2 q d) :=
  shapeCast_apply v _ (ix3 (0 : Fin 1) q d) (ix2 q d) (by
    rw [Shape.rowMajor_val_three, Shape.rowMajor_val_two]
    show q.val * 256 + d.val = ((0 : ℕ) * 512 + q.val) * 256 + d.val
    omega)

/-- A vector of row statistics as a one-column matrix. -/
theorem column_apply (v : S512.Idx → α) (q : Fin 512) :
    shapeCast S512x1 v shapeCasts_S512_S512x1 (ix2 q (0 : Fin 1)) = v (ix1 q) :=
  shapeCast_apply v _ (ix2 q (0 : Fin 1)) (ix1 q) (by
    rw [Shape.rowMajor_val_one, Shape.rowMajor_val_two]
    show q.val = q.val * 1 + (0 : ℕ)
    omega)

/-- The column spread over the 4096 encoder positions of each row. -/
theorem spreadScores_apply (v : S512x1.Idx → α) (q : Fin 512) (k : Fin 4096) :
    broadcastTo S512x4096 v broadcasts_S512x1_S512x4096 (ix2 q k) = v (ix2 q (0 : Fin 1)) :=
  broadcastTo_apply v _ (ix2 q k) (ix2 q (0 : Fin 1)) (fun a => match a with
    | ⟨0, _⟩ => by show q.val = if (512 : Nat) = 1 then 0 else q.val; rw [if_neg (by decide)]
    | ⟨1, _⟩ => by show (0 : ℕ) = if (1 : Nat) = 1 then 0 else k.val; rw [if_pos rfl])

/-- The column spread over the 256 features of each row. -/
theorem spreadOut_apply (v : S512x1.Idx → α) (q : Fin 512) (d : Fin 256) :
    broadcastTo S512x256 v broadcasts_S512x1_S512x256 (ix2 q d) = v (ix2 q (0 : Fin 1)) :=
  broadcastTo_apply v _ (ix2 q d) (ix2 q (0 : Fin 1)) (fun a => match a with
    | ⟨0, _⟩ => by show q.val = if (512 : Nat) = 1 then 0 else q.val; rw [if_neg (by decide)]
    | ⟨1, _⟩ => by show (0 : ℕ) = if (1 : Nat) = 1 then 0 else d.val; rw [if_pos rfl])

end Layout

/-! ## The two matrix products at an index -/

theorem lhs_scores_0 (i : S512x4096.Idx) (c : dot_S512x256_S4096x256_S512x4096_1_1_0_0_n_n.contr.Idx) :
    (dot_S512x256_S4096x256_S512x4096_1_1_0_0_n_n.lhsIdx i c 0).val = (i 0).val := by
  unfold DotDims.lhsIdx
  rw [dif_neg (show ¬(0 : Fin S512x256.rank) ∈ dot_S512x256_S4096x256_S512x4096_1_1_0_0_n_n.lhsBatch by decide), dif_pos (show (0 : Fin S512x256.rank) ∈ dot_S512x256_S4096x256_S512x4096_1_1_0_0_n_n.lhsNonContracting by decide)]
  rfl
theorem lhs_scores_1 (i : S512x4096.Idx) (c : dot_S512x256_S4096x256_S512x4096_1_1_0_0_n_n.contr.Idx) :
    (dot_S512x256_S4096x256_S512x4096_1_1_0_0_n_n.lhsIdx i c 1).val = (c ⟨0, by decide⟩).val :=
  dot_S512x256_S4096x256_S512x4096_1_1_0_0_n_n.lhsIdx_val_of_single rfl i c
theorem rhs_scores_0 (i : S512x4096.Idx) (c : dot_S512x256_S4096x256_S512x4096_1_1_0_0_n_n.contr.Idx) :
    (dot_S512x256_S4096x256_S512x4096_1_1_0_0_n_n.rhsIdx i c 0).val = (i 1).val := by
  unfold DotDims.rhsIdx
  rw [dif_neg (show ¬(0 : Fin S4096x256.rank) ∈ dot_S512x256_S4096x256_S512x4096_1_1_0_0_n_n.rhsBatch by decide), dif_pos (show (0 : Fin S4096x256.rank) ∈ dot_S512x256_S4096x256_S512x4096_1_1_0_0_n_n.rhsNonContracting by decide)]
  rfl
theorem rhs_scores_1 (i : S512x4096.Idx) (c : dot_S512x256_S4096x256_S512x4096_1_1_0_0_n_n.contr.Idx) :
    (dot_S512x256_S4096x256_S512x4096_1_1_0_0_n_n.rhsIdx i c 1).val = (c ⟨0, by decide⟩).val :=
  dot_S512x256_S4096x256_S512x4096_1_1_0_0_n_n.rhsIdx_val_of_single rfl i c

/-- The score product at `(q, k)`: decoder row `q` against encoder row `k`, summed over the features. -/
theorem scoreProduct_apply (L : FVec Ideal S512x256 .bf16) (R : FVec Ideal S4096x256 .bf16) (q : Fin 512) (k : Fin 4096) :
    matmul dot_S512x256_S4096x256_S512x4096_1_1_0_0_n_n none L R (constant S512x4096 .f32 0x00000000#32) (ix2 q k)
      = ∑ d : Fin 256, L (ix2 q d) * R (ix2 k d) := by
  simp only [matmul]
  rw [Ideal.matmul_constant_zero_apply, ← Equiv.sum_comp (contrEquiv1 dot_S512x256_S4096x256_S512x4096_1_1_0_0_n_n 256 rfl rfl).symm]
  refine Finset.sum_congr rfl fun d _ => ?_
  have hk := contrEquiv1_symm_val dot_S512x256_S4096x256_S512x4096_1_1_0_0_n_n 256 rfl rfl d
  have el : dot_S512x256_S4096x256_S512x4096_1_1_0_0_n_n.lhsIdx (ix2 q k) ((contrEquiv1 dot_S512x256_S4096x256_S512x4096_1_1_0_0_n_n 256 rfl rfl).symm d) = ix2 q d := funext fun a => Fin.ext (by
    match a with
    | ⟨0, _⟩ => exact lhs_scores_0 _ _
    | ⟨1, _⟩ => exact (lhs_scores_1 _ _).trans hk)
  have er : dot_S512x256_S4096x256_S512x4096_1_1_0_0_n_n.rhsIdx (ix2 q k) ((contrEquiv1 dot_S512x256_S4096x256_S512x4096_1_1_0_0_n_n 256 rfl rfl).symm d) = ix2 k d := funext fun a => Fin.ext (by
    match a with
    | ⟨0, _⟩ => exact rhs_scores_0 _ _
    | ⟨1, _⟩ => exact (rhs_scores_1 _ _).trans hk)
  rw [el, er]

theorem lhs_mix_0 (i : S512x256.Idx) (c : dot_S512x4096_S4096x256_S512x256_1_0_0_1_n_n.contr.Idx) :
    (dot_S512x4096_S4096x256_S512x256_1_0_0_1_n_n.lhsIdx i c 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem lhs_mix_1 (i : S512x256.Idx) (c : dot_S512x4096_S4096x256_S512x256_1_0_0_1_n_n.contr.Idx) :
    (dot_S512x4096_S4096x256_S512x256_1_0_0_1_n_n.lhsIdx i c 1).val = (c ⟨0, by decide⟩).val :=
  dot_S512x4096_S4096x256_S512x256_1_0_0_1_n_n.lhsIdx_val_of_single rfl i c
theorem rhs_mix_0 (i : S512x256.Idx) (c : dot_S512x4096_S4096x256_S512x256_1_0_0_1_n_n.contr.Idx) :
    (dot_S512x4096_S4096x256_S512x256_1_0_0_1_n_n.rhsIdx i c 0).val = (c ⟨0, by decide⟩).val :=
  dot_S512x4096_S4096x256_S512x256_1_0_0_1_n_n.rhsIdx_val_of_single rfl i c
theorem rhs_mix_1 (i : S512x256.Idx) (c : dot_S512x4096_S4096x256_S512x256_1_0_0_1_n_n.contr.Idx) :
    (dot_S512x4096_S4096x256_S512x256_1_0_0_1_n_n.rhsIdx i c 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- The mixing product at `(q, d)`: row `q` of the weights against column `d` of the encoder rows, summed over
    the encoder rows. -/
theorem mixProduct_apply (P : FVec Ideal S512x4096 .bf16) (R : FVec Ideal S4096x256 .bf16) (q : Fin 512) (d : Fin 256) :
    matmul dot_S512x4096_S4096x256_S512x256_1_0_0_1_n_n none P R (constant S512x256 .f32 0x00000000#32) (ix2 q d)
      = ∑ k : Fin 4096, P (ix2 q k) * R (ix2 k d) := by
  simp only [matmul]
  rw [Ideal.matmul_constant_zero_apply, ← Equiv.sum_comp (contrEquiv1 dot_S512x4096_S4096x256_S512x256_1_0_0_1_n_n 4096 rfl rfl).symm]
  refine Finset.sum_congr rfl fun k _ => ?_
  have hk := contrEquiv1_symm_val dot_S512x4096_S4096x256_S512x256_1_0_0_1_n_n 4096 rfl rfl k
  have el : dot_S512x4096_S4096x256_S512x256_1_0_0_1_n_n.lhsIdx (ix2 q d) ((contrEquiv1 dot_S512x4096_S4096x256_S512x256_1_0_0_1_n_n 4096 rfl rfl).symm k) = ix2 q k := funext fun a => Fin.ext (by
    match a with
    | ⟨0, _⟩ => exact lhs_mix_0 _ _
    | ⟨1, _⟩ => exact (lhs_mix_1 _ _).trans hk)
  have er : dot_S512x4096_S4096x256_S512x256_1_0_0_1_n_n.rhsIdx (ix2 q d) ((contrEquiv1 dot_S512x4096_S4096x256_S512x256_1_0_0_1_n_n 4096 rfl rfl).symm k) = ix2 k d := funext fun a => Fin.ext (by
    match a with
    | ⟨0, _⟩ => exact (rhs_mix_0 _ _).trans hk
    | ⟨1, _⟩ => exact rhs_mix_1 _ _)
  rw [el, er]

/-! ## The two row reductions at an index -/

/-- A row's maximum from minus infinity. -/
theorem rowMaximum_apply (v : FVec Ideal S512x4096 .f32) (hφ : FKind.Formats .f32)
    (hacc : (0xFF800000#32 : BitVec 32) = FKind.maximumf.neutral .f32 hφ) (q : Fin 512) :
    multiReduction .maximumf [1] S512 v 0xFF800000#32 reduces_S512x4096_S512 hφ hacc (ix1 q)
      = rowMax negInf (fun k : Fin 4096 => v (ix2 q k)) := by
  refine (Ideal.multiReduction_maximumf_single v _ reduces_S512x4096_S512 hφ hacc (ix1 q)).trans ?_
  have e : (v ∘ reduces_S512x4096_S512.lift (ix1 q)) = fun k : Fin 4096 => v (ix2 q k) :=
    funext fun k => congrArg v (funext fun a => Fin.ext (by match a with | ⟨0, _⟩ => rfl | ⟨1, _⟩ => rfl))
  rw [e]
  rfl

/-- A row's sum. -/
theorem rowSum_apply (v : FVec Ideal S512x4096 .f32) (hφ : FKind.Formats .f32)
    (hacc : (0x00000000#32 : BitVec 32) = FKind.add.neutral .f32 hφ) (q : Fin 512) :
    multiReduction .add [1] S512 v 0x00000000#32 reduces_S512x4096_S512 hφ hacc (ix1 q)
      = ∑ k : Fin 4096, v (ix2 q k) := by
  refine (Ideal.multiReduction_add_single v _ reduces_S512x4096_S512 hφ hacc (ix1 q)).trans ?_
  refine Finset.sum_congr rfl fun k _ => ?_
  exact congrArg v (funext fun a => Fin.ext (by match a with | ⟨0, _⟩ => rfl | ⟨1, _⟩ => rfl))

/-! ## The body's stages, named, and each at an index -/

variable (x0 : Vec Ideal S1x4096x256 .bf16) (x1 : Vec Ideal S1x512x256 .bf16)

/-- The block's encoder rows and one of its decoder rows, as the row law takes them. -/
abbrev encRows : Fin 4096 → Fin 256 → EReal := fun k d => x0 (ix3 (0 : Fin 1) k d)
abbrev decRow (q : Fin 512) : Fin 256 → EReal := fun d => x1 (ix3 (0 : Fin 1) q d)

def encM : FVec Ideal S4096x256 .bf16 := shapeCast S4096x256 x0 shapeCasts_S1x4096x256_S4096x256
def decM : FVec Ideal S512x256 .bf16 := shapeCast S512x256 x1 shapeCasts_S1x512x256_S512x256
def scoreM : FVec Ideal S512x4096 .f32 :=
  matmul dot_S512x256_S4096x256_S512x4096_1_1_0_0_n_n none (decM x1) (encM x0) (constant S512x4096 .f32 0x00000000#32)
def maxV : FVec Ideal S512 .f32 :=
  multiReduction .maximumf [1] S512 (scoreM x0 x1) 0xFF800000#32 reduces_S512x4096_S512 (.inl rfl) rfl
def expM : FVec Ideal S512x4096 .f32 :=
  exp (subf (scoreM x0 x1) (broadcastTo S512x4096 (shapeCast S512x1 (maxV x0 x1) shapeCasts_S512_S512x1) broadcasts_S512x1_S512x4096))
def sumV : FVec Ideal S512 .f32 :=
  multiReduction .add [1] S512 (expM x0 x1) 0x00000000#32 reduces_S512x4096_S512 (.inl rfl) rfl
def mixM : FVec Ideal S512x256 .f32 :=
  matmul dot_S512x4096_S4096x256_S512x256_1_0_0_1_n_n none (truncf .bf16 (expM x0 x1) bitsLt_bf16_f32) (encM x0) (constant S512x256 .f32 0x00000000#32)

/-- The payload is the stages composed. -/
theorem pay_eq : k0_pay1 (F := Ideal) x0 x1
    = shapeCast S1x512x256 (mulf (mixM x0 x1) (broadcastTo S512x256 (divf (broadcast S512x1 (Scalar.ofBits .f32 0x3F800000#32))
        (shapeCast S512x1 (sumV x0 x1) shapeCasts_S512_S512x1)) broadcasts_S512x1_S512x256)) shapeCasts_S512x256_S1x512x256 := rfl

theorem scoreM_apply (q : Fin 512) (k : Fin 4096) : scoreM x0 x1 (ix2 q k) = scores (encRows x0) (decRow x1 q) k := by
  unfold scoreM
  rw [scoreProduct_apply]
  refine Finset.sum_congr rfl fun d _ => ?_
  unfold decM encM
  rw [decMatrix_apply, encMatrix_apply]

theorem maxV_apply (q : Fin 512) : maxV x0 x1 (ix1 q) = rowMax negInf (scores (encRows x0) (decRow x1 q)) := by
  unfold maxV
  exact (rowMaximum_apply _ _ _ q).trans (congrArg (rowMax negInf) (funext fun k => scoreM_apply x0 x1 q k))

theorem expM_apply (q : Fin 512) (k : Fin 4096) :
    expM x0 x1 (ix2 q k) = expw negInf (scores (encRows x0) (decRow x1 q)) k := by
  show Ideal.exp (scoreM x0 x1 (ix2 q k) - broadcastTo S512x4096 (shapeCast S512x1 (maxV x0 x1) shapeCasts_S512_S512x1) broadcasts_S512x1_S512x4096 (ix2 q k)) = _
  rw [spreadScores_apply, column_apply, scoreM_apply, maxV_apply]
  rfl

theorem sumV_apply (q : Fin 512) :
    sumV x0 x1 (ix1 q) = ∑ k : Fin 4096, expw negInf (scores (encRows x0) (decRow x1 q)) k := by
  unfold sumV
  exact (rowSum_apply _ _ _ q).trans (Finset.sum_congr rfl fun k _ => expM_apply x0 x1 q k)

theorem mixM_apply (q : Fin 512) (d : Fin 256) :
    mixM x0 x1 (ix2 q d) = ∑ k : Fin 4096, expw negInf (scores (encRows x0) (decRow x1 q)) k * encRows x0 k d := by
  unfold mixM
  rw [mixProduct_apply]
  refine Finset.sum_congr rfl fun k _ => ?_
  show expM x0 x1 (ix2 q k) * encM x0 (ix2 k d) = _
  rw [expM_apply]
  unfold encM
  rw [encMatrix_apply]

/-- THE BLOCK AT AN INDEX: the normalise-once form of the row law. -/
theorem pay_apply (q : Fin 512) (d : Fin 256) :
    k0_pay1 (F := Ideal) x0 x1 (ix3 (0 : Fin 1) q d) = rowOut negInf oneW (encRows x0) (decRow x1 q) d := by
  rw [pay_eq, outBlock_apply]
  show mixM x0 x1 (ix2 q d) * broadcastTo S512x256 (divf (broadcast S512x1 (Scalar.ofBits .f32 0x3F800000#32))
        (shapeCast S512x1 (sumV x0 x1) shapeCasts_S512_S512x1)) broadcasts_S512x1_S512x256 (ix2 q d) = _
  rw [spreadOut_apply]
  show mixM x0 x1 (ix2 q d) * Ideal.div oneW (shapeCast S512x1 (sumV x0 x1) shapeCasts_S512_S512x1 (ix2 q (0 : Fin 1))) = _
  rw [column_apply, mixM_apply, sumV_apply]
  rfl

end Cert.KernelIdeal.Block

end
-- ==== Proof.AttnArray.lean ====
/-
  The whole result as one function of the two inputs.

  Entry `(b, j, d)` of the result is the row law's value for batch `b`'s encoder rows and decoder row `j`, at
  feature `d`.  The kernel's blocks are pieces of this function in its normalise-once form; on real inputs it is
  the reference's normalise-first form.
-/
import proofs.«427247_j67525475828089_3_alg».proof.Proof.LibAttnRow
import proofs.«427247_j67525475828089_3_alg».proof.Proof.Words
import Idealize.ShloMosaic.Lib.ValueIdx

noncomputable section

namespace Cert.Attn

open Idealize.ShloMosaic Idealize.ShloMosaic.ValueIdx

/-- The shape of both inputs and of the result: 8 batches of 4096 rows of 256 features. -/
abbrev A3 : Shape := ⟨3, ![8, 4096, 256]⟩

/-- Attention of every decoder row over its batch's encoder rows, normalised once per row. -/
def attn (enc dec : A3.Idx → EReal) : A3.Idx → EReal := fun i =>
  rowOut negInf oneW (fun k d => enc (ix3 (i 0) k d)) (fun d => dec (ix3 (i 0) (i 1) d)) (i 2)

/-- On real inputs it is the normalise-first form the reference computes. -/
theorem attn_eq_rowRef (enc dec : A3.Idx → EReal) (hE : ∀ i, IsReal (enc i)) (hD : ∀ i, IsReal (dec i))
    (b : Fin 8) (j : Fin 4096) (d : Fin 256) :
    attn enc dec (ix3 b j d) = rowRef negInf zeroW (fun k d => enc (ix3 b k d)) (fun d => dec (ix3 b j d)) d :=
  rowOut_eq_rowRef negInf oneW zeroW negInf_ne_top oneW_eq zeroW_eq _ _ (fun _ _ => hE _) (fun _ => hD _)
    ⟨0, by decide⟩ d

end Cert.Attn

end
-- ==== Proof.KernelArray.lean ====
/-
  From the kernel's blocks to its result array.

  Grid point `t = (b, qi)` holds batch `b`'s 4096 encoder rows and decoder rows `512 qi … 512 qi + 511` of the
  same batch, and writes back rows `512 qi … 512 qi + 511` of batch `b` of the result.  What it writes is the
  block of `Cert.Attn.attn` at those rows, the 64 blocks tile the result, so after the run the result array is
  `attn` of the two arrays the region was entered with; and those are the two arguments, the change of float
  format before the region being the identity on the extended reals.
-/
import proofs.«427247_j67525475828089_3_alg».proof.Proof.Gen.KernelIdeal.Value
import proofs.«427247_j67525475828089_3_alg».proof.Proof.KernelBlock
import proofs.«427247_j67525475828089_3_alg».proof.Proof.AttnArray
import Idealize.ShloMosaic.Lib.Pipeline.Value
import Idealize.ShloMosaic.Lib.StableHlo.Run
import Idealize.ShloMosaic.Lib.Tactic

set_option maxRecDepth 16384

noncomputable section

namespace Cert.KernelIdeal.Arr

open Cert.KernelIdeal Cert.KernelIdeal.Gen Cert.KernelIdeal.Value Cert.KernelIdeal.Block
open Idealize.ShloMosaic Idealize.ShloMosaic.TcCoe Idealize.SL.Sem Idealize.ShloMosaic.ValueIdx Cert.Attn
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The encoder and decoder arrays as the region finds them, and each point's two input blocks. -/
abbrev encArr (c : Dev nD) : S8x4096x256.Idx → EReal := V m c main_v0
abbrev decArr (c : Dev nD) : S8x4096x256.Idx → EReal := V m c main_v1
abbrev encBlk (c : Dev nD) (t : Fin cfg0.N) : Vec Ideal S1x4096x256 .bf16 := iblk m c 0 t
abbrev decBlk (c : Dev nD) (t : Fin cfg0.N) : Vec Ideal S1x512x256 .bf16 := iblk m c 1 t
/-- The array index of entry `y` of point `t`'s output block. -/
abbrev outIdx (t : Fin cfg0.N) (y : S1x512x256.Idx) : S8x4096x256.Idx := ((cfg0.win 2).blk t).view.emb y

/-- The printed index maps over the 64 points: the encoder window follows the output's batch and stays at row
    block 0; the decoder window moves with the output; nothing moves along the features. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = win0_2.index t (1 : Fin 3)
    ∧ win0_1.index t (2 : Fin 3) = 0 ∧ win0_2.index t (2 : Fin 3) = 0
    ∧ win0_2.index t (0 : Fin 3) < 8 ∧ win0_2.index t (1 : Fin 3) < 8 :=
  (by decide +kernel : ∀ t : Fin grid0.N, _)

/-- Every (batch, row block) pair is some point's. -/
theorem idx_onto : ∀ (b : Fin 8) (qi : Fin 8), ∃ t : Fin cfg0.N, win0_2.index t = ![b.val, qi.val, 0] :=
  (by decide +kernel : ∀ (b : Fin 8) (qi : Fin 8), ∃ t : Fin grid0.N, win0_2.index t = ![b.val, qi.val, 0])

/-- One entry of a block of the payload is the entry of `attn` it is stored at, given where the point's input
    blocks sit in their arrays. -/
theorem entry_eq (enc dec : S8x4096x256.Idx → EReal) (X0 : Vec Ideal S1x4096x256 .bf16) (X1 : Vec Ideal S1x512x256 .bf16)
    (q : Fin 512) (d : Fin 256) (i : S8x4096x256.Idx)
    (hE : ∀ k d', X0 (ix3 (0 : Fin 1) k d') = enc (ix3 (i 0) k d'))
    (hD : ∀ d', X1 (ix3 (0 : Fin 1) q d') = dec (ix3 (i 0) (i 1) d'))
    (h2 : d = i 2) :
    k0_pay1 (F := Ideal) X0 X1 (ix3 (0 : Fin 1) q d) = attn enc dec i := by
  rw [pay_apply]
  unfold attn
  rw [show encRows X0 = (fun k d' => enc (ix3 (i 0) k d')) from funext fun k => funext fun d' => hE k d',
    show decRow X1 q = (fun d' => dec (ix3 (i 0) (i 1) d')) from funext hD, h2]

/-- Point `t`'s payload is the block of `attn` at the rows it writes back. -/
theorem payload_eq (c : Dev nD) (t : Fin cfg0.N) :
    k0_pay1 (F := Ideal) (encBlk m c t) (decBlk m c t) = fun y => attn (encArr m c) (decArr m c) (outIdx t y) := by
  obtain ⟨e00, e01, e02, e10, e11, e12, e22, b0, b1⟩ := idx_facts t
  funext y
  obtain ⟨z, q, d, rfl⟩ : ∃ (z : Fin 1) (q : Fin 512) (d : Fin 256), y = ix3 z q d := ⟨y 0, y 1, y 2, eq_ix3 y⟩
  obtain rfl : z = 0 := Fin.ext (by have := z.isLt; omega)
  refine entry_eq _ _ _ _ q d _ (fun k d' => ?_) (fun d' => ?_) ?_
  · show V m c main_v0 (((cfg0.win 0).blk t).view.emb (ix3 (0 : Fin 1) k d')) = V m c main_v0 _
    refine congrArg (V m c main_v0) (funext fun a => Fin.ext ?_)
    match a with
    | ⟨0, _⟩ => show win0_0.index t (0 : Fin 3) * 1 + 1 * (0 : ℕ) = win0_2.index t (0 : Fin 3) * 1 + 1 * (0 : ℕ); omega
    | ⟨1, _⟩ => show win0_0.index t (1 : Fin 3) * 4096 + 1 * k.val = k.val; omega
    | ⟨2, _⟩ => show win0_0.index t (2 : Fin 3) * 256 + 1 * d'.val = d'.val; omega
  · show V m c main_v1 (((cfg0.win 1).blk t).view.emb (ix3 (0 : Fin 1) q d')) = V m c main_v1 _
    refine congrArg (V m c main_v1) (funext fun a => Fin.ext ?_)
    match a with
    | ⟨0, _⟩ => show win0_1.index t (0 : Fin 3) * 1 + 1 * (0 : ℕ) = win0_2.index t (0 : Fin 3) * 1 + 1 * (0 : ℕ); omega
    | ⟨1, _⟩ => show win0_1.index t (1 : Fin 3) * 512 + 1 * q.val = win0_2.index t (1 : Fin 3) * 512 + 1 * q.val; omega
    | ⟨2, _⟩ => show win0_1.index t (2 : Fin 3) * 256 + 1 * d'.val = d'.val; omega
  · refine Fin.ext ?_
    show d.val = win0_2.index t (2 : Fin 3) * 256 + 1 * d.val
    omega

/-- WHAT POINT `t` WRITES BACK is block `t` of `attn` of the arrays as the region finds them. -/
theorem flushed_eq (c : Dev nD) (t : Fin cfg0.N) :
    (dats m 0 c).flushed 2 t = ((cfg0.win 2).blk t).view.read (Elt Ideal) (attn (encArr m c) (decArr m c)) := by
  rw [flushed2]
  unfold out0_2
  rw [View.canon_unit_zero hz]
  simp only [View.ld_unit_zero (S := S1x4096x256) hz, View.ld_unit_zero (S := S1x512x256) hz]
  show k0_pay1 (F := Ideal) (encBlk m c t) (decBlk m c t) = fun y => attn (encArr m c) (decArr m c) (outIdx t y)
  exact payload_eq m c t

/-- An index of the result is in point `t`'s block iff each coordinate is in the block's range on its axis. -/
theorem mem_blk (t : Fin cfg0.N) (i : S8x4096x256.Idx) :
    i ∈ ((cfg0.win 2).blk t).view.set ↔ ∀ a : Fin 3, win0_2.index t a * S1x512x256.size a ≤ (i a).val ∧ (i a).val < win0_2.index t a * S1x512x256.size a + S1x512x256.size a := by
  show i ∈ ((View.whole main_v2).slice (win0_2.rect t)).set ↔ _
  rw [View.set_slice_whole, Rect.mem_set_unit]
  exact Iff.rfl

/-- The 64 blocks cover the result. -/
theorem cover (i : S8x4096x256.Idx) : ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 256 := (i 2).isLt
  obtain ⟨t, ht⟩ := idx_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 256 ≤ (i 2).val ∧ (i 2).val < win0_2.index t (2 : Fin 3) * 256 + 256; omega

/-- The arrays the region is entered with are the arguments: the narrowing of the float format before the region
    changes no extended real. -/
theorem encArr_eq (c : Dev nD) : encArr m c = (m ((c : Thread nD τ).loc main_arg0) : S8x4096x256.Idx → EReal) := by
  show (V m c main_v0 : S8x4096x256.Idx → EReal) = _
  dsimp only [V, hostOps0]; after_results; rfl
theorem decArr_eq (c : Dev nD) : decArr m c = (m ((c : Thread nD τ).loc main_arg1) : S8x4096x256.Idx → EReal) := by
  show (V m c main_v1 : S8x4096x256.Idx → EReal) = _
  dsimp only [V, hostOps0]; after_results; rfl

/-- THE RESULT ARRAY after the run is `attn` of the two arguments. -/
theorem final (c : Dev nD) :
    (dats m 0 c).arrAt 2 cfg0.N = attn (m ((c : Thread nD τ).loc main_arg0)) (m ((c : Thread nD τ).loc main_arg1)) := by
  rw [← encArr_eq m c, ← decArr_eq m c]
  exact (dats m 0 c).arrAt_eq_of_cover 2 (attn (encArr m c) (decArr m c)) (fun t _ => flushed_eq m c t) cover

/-- The run, read: the result at `attn` of the arguments, the arguments unchanged. -/
theorem run : θ_run defs (onTc (τ := τ) (main (F := Ideal))) ⟨m, fun _ => 0, ρ⟩ fun r => ∀ c : Dev nD,
      r.2.mem ((c : Thread nD τ).loc main_v2) = attn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Arr

end
-- ==== Proof.RefValue.lean ====
/-
  The reference's result read at an index.

  The reference scores every encoder row `k` of batch `b` against decoder row `j` (a sum over the 256 features
  of encoder entry times decoder entry), takes the maximum of the scores over the encoder rows from minus
  infinity and once more against minus infinity, exponentiates score less maximum, sums the exponentials over the
  encoder rows from zero, divides each exponential by the sum, and sums the quotients against column `d` of the
  encoder rows.  At index `(b, j, d)` that is `Cert.Attn.rowRef` of batch `b`'s encoder rows and decoder row `j`.
-/
import proofs.«427247_j67525475828089_3_alg».proof.Proof.Gen.ReferenceIdeal.Read
import proofs.«427247_j67525475828089_3_alg».proof.Proof.LibAttnRow
import proofs.«427247_j67525475828089_3_alg».proof.Proof.Words
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.Attn Cert.RowLaws

variable (x0 x1 : (⟨S8x4096x256, .f32⟩ : BufTy).Contents (Elt Ideal))

/-- Batch `b`'s encoder rows. -/
abbrev encRows (b : Fin 8) : Fin 4096 → Fin 256 → EReal := fun k d => x0 (ix3 b k d)
/-- Decoder row `j` of batch `b`. -/
abbrev decRow (b : Fin 8) (j : Fin 4096) : Fin 256 → EReal := fun d => x1 (ix3 b j d)

/-- The score array at `(b, k, j)`: encoder row `k` against decoder row `j`. -/
theorem score_at (b : Fin 8) (k j : Fin 4096) :
    val_main_v0 (F := Ideal) x0 x1 (ix3 b k j) = scoresT (encRows x0 b) (decRow x1 b j) k := by
  rw [val_main_v0_apply]
  refine Finset.sum_congr rfl fun d _ => ?_
  have el : lidx_main_v0 (ix3 b k j) d = ix3 b k d :=
    funext fun a => by match a with | ⟨0, _⟩ => rfl | ⟨1, _⟩ => rfl | ⟨2, _⟩ => rfl
  have er : ridx_main_v0 (ix3 b k j) d = ix3 b j d :=
    funext fun a => by match a with | ⟨0, _⟩ => rfl | ⟨1, _⟩ => rfl | ⟨2, _⟩ => rfl
  rw [el, er]

/-- The maximum over the encoder rows at `(b, j)`: the fold of `max` from minus infinity over the scores. -/
theorem max_at (b : Fin 8) (j : Fin 4096) :
    val_main_v1 (F := Ideal) x0 x1 (ix2 b j) = rowMax negInf (scoresT (encRows x0 b) (decRow x1 b j)) := by
  have h : S8x4096x4096.Reduces [1] S8x4096 := by decide
  unfold val_main_v1
  rw [Host.reduce_eq_fold_single (FloatOps.maximumf (F := Ideal) (φ := .f32)) _ _ reducesTo_S8x4096x4096_S8x4096_d1 h h_S_]
  have e : (val_main_v0 (F := Ideal) x0 x1 ∘ h.lift (ix2 b j)) = scoresT (encRows x0 b) (decRow x1 b j) :=
    funext fun k => by
      rw [← score_at x0 x1 b k j]
      exact congrArg (val_main_v0 (F := Ideal) x0 x1)
        (funext fun a => Fin.ext (by match a with | ⟨0, _⟩ => rfl | ⟨1, _⟩ => rfl | ⟨2, _⟩ => rfl))
  rw [e]
  rfl

/-- The maximum taken once more against minus infinity. -/
theorem max2_at (b : Fin 8) (j : Fin 4096) :
    val_main_v3 (F := Ideal) x0 x1 (ix2 b j)
      = max negInf (rowMax negInf (scoresT (encRows x0 b) (decRow x1 b j))) := by
  rw [val_main_v3_apply, max_at, val_main_v2_apply, val_main_cst_0_apply]
  rfl

/-- The exponential at `(b, k, j)`. -/
theorem exp_at (b : Fin 8) (k j : Fin 4096) :
    val_main_v7 (F := Ideal) x0 x1 (ix3 b k j)
      = Ideal.exp (scoresT (encRows x0 b) (decRow x1 b j) k
          - max negInf (rowMax negInf (scoresT (encRows x0 b) (decRow x1 b j)))) := by
  have e5 : idx_main_v4 (idx_main_v5 (ix3 b k j)) = ix2 b j :=
    funext fun a => by match a with | ⟨0, _⟩ => rfl | ⟨1, _⟩ => rfl
  rw [val_main_v7_apply, val_main_v6_apply, score_at, val_main_v5_apply, val_main_v4_apply, e5, max2_at]
  rfl

/-- The sum of the exponentials over the encoder rows at `(b, j)`, from zero. -/
theorem sum_at (b : Fin 8) (j : Fin 4096) :
    val_main_v8 (F := Ideal) x0 x1 (ix2 b j)
      = zeroW + ∑ k' : Fin 4096, Ideal.exp (scoresT (encRows x0 b) (decRow x1 b j) k'
          - max negInf (rowMax negInf (scoresT (encRows x0 b) (decRow x1 b j)))) := by
  rw [val_main_v8_apply, val_main_cst_1_apply]
  refine congrArg (_ + ·) (Finset.sum_congr rfl fun k' _ => ?_)
  have e8 : idx_main_v8 (ix2 b j) k' = ix3 b k' j :=
    funext fun a => by match a with | ⟨0, _⟩ => rfl | ⟨1, _⟩ => rfl | ⟨2, _⟩ => rfl
  rw [e8, exp_at]

/-- THE REFERENCE AT AN INDEX: the normalised-weights form of the row law. -/
theorem result_at (b : Fin 8) (j : Fin 4096) (d : Fin 256) :
    val_main_v12 (F := Ideal) x0 x1 (ix3 b j d) = rowRef negInf zeroW (encRows x0 b) (decRow x1 b j) d := by
  rw [val_main_v12_apply]
  unfold rowRef
  refine Finset.sum_congr rfl fun k _ => ?_
  have el : lidx_main_v12 (ix3 b j d) k = ix3 b k j :=
    funext fun a => by match a with | ⟨0, _⟩ => rfl | ⟨1, _⟩ => rfl | ⟨2, _⟩ => rfl
  have er : ridx_main_v12 (ix3 b j d) k = ix3 b k d :=
    funext fun a => by match a with | ⟨0, _⟩ => rfl | ⟨1, _⟩ => rfl | ⟨2, _⟩ => rfl
  have e10 : idx_main_v9 (idx_main_v10 (ix3 b k j)) = ix2 b j :=
    funext fun a => by match a with | ⟨0, _⟩ => rfl | ⟨1, _⟩ => rfl
  rw [el, er, val_main_v11_apply, exp_at, val_main_v10_apply, val_main_v9_apply, e10, sum_at]
  rfl

end Cert.ReferenceIdeal.RefValue

end
-- ==== Proof.Finite.lean ====
/-
  What the precondition says of the entries.

  The precondition compares the absolute value of every entry of both inputs with plus infinity and takes the
  conjunction of all the comparisons.  On the extended reals `max x (-x) < ⊤` holds exactly when `x` is neither
  infinity, so under the precondition every entry of both arrays is a real number.
-/
import proofs.«427247_j67525475828089_3_alg».proof.Pre_finite_inputs
import proofs.«427247_j67525475828089_3_alg».proof.Proof.LibAttnRow
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Cert.Attn

variable [Facts]
open Facts

instance : Subsingleton S_.Idx := ⟨fun a b => funext fun d => d.elim0⟩

/-- The comparison word `x < y` is one only when `x < y`. -/
theorem lt_of_cmp_olt {a b : EReal} (h : Ideal.cmp .olt a b = 1#1) : a < b := by
  by_contra hn
  unfold Ideal.cmp at h
  simp [hn] at h

/-- The pattern the entries are compared with is plus infinity. -/
theorem posInf_eq : Ideal.ofBits .f32 0x7F800000#32 = ⊤ := by simp [Ideal.ofBits, Ideal.ieee]

/-- An extended real whose absolute value is below plus infinity is a real number. -/
theorem isReal_of_abs_lt (x : EReal) (h : Ideal.cmp .olt (max x (-x)) (Ideal.ofBits .f32 0x7F800000#32) = 1#1) :
    IsReal x := by
  have hlt := lt_of_cmp_olt h
  rw [posInf_eq] at hlt
  refine ⟨fun hx => ?_, fun hx => ?_⟩
  · rw [hx] at hlt; simp at hlt
  · rw [hx] at hlt; simp at hlt

/-- One entry's comparison, as the precondition prints it. -/
theorem isReal_of_entry (a : FVec Ideal S8x4096x256 .f32) (i : S8x4096x256.Idx)
    (h : cmpf .olt (Host.absf a) (broadcastInDim S8x4096x256 ![] bcast_S_S8x4096x256 (constant S_ .f32 0x7F800000#32)) i = 1#1) :
    IsReal (a i) :=
  isReal_of_abs_lt (a i) h

/-- Under the precondition every entry of both arrays is real. -/
theorem all_real (a0 a1 : FVec Ideal S8x4096x256 .f32) (h : fn (F := Ideal) a0 a1 = fun _ => 1#1) :
    (∀ i, IsReal (a0 i)) ∧ (∀ i, IsReal (a1 i)) := by
  have h0 := congrFun h ValueIdx.ix0
  dsimp only [fn] at h0
  obtain ⟨h3, h7⟩ := IntOp.andi_eq_one.mp h0
  exact ⟨fun i => isReal_of_entry a0 i (Host.reduce_andi_all _ _ _ _ _ h3 i),
    fun i => isReal_of_entry a1 i (Host.reduce_andi_all _ _ _ _ _ h7 i)⟩

end Cert.Pre_finite_inputs.Finite

end
-- ==== Proof.lean ====
/-
  Encoder-decoder attention: every decoder row attends over its batch's encoder rows.

  Both programs score decoder row `j` of batch `b` against each of the batch's 4096 encoder rows by the inner
  product over the 256 features, turn the scores into softmax weights over the encoder rows and return the
  weighted sum of the encoder rows.  The kernel does it 512 decoder rows at a time: it leaves the weights
  unnormalised, `exp (s - max s)`, multiplies them into the encoder rows and scales each result row once by one
  over the row's sum of weights.  The reference normalises every weight before the product.

  * The three frames: the kernel's two are the generated ones; the reference's is its generated run with the
    result dropped.
  * `preserves`: the idealisation rewrote nothing, the conjunct is `True`.
  * `algebraic`: the kernel's result array is `Cert.Attn.attn` of the two arguments (its blocks are pieces of that
    one function and tile the array: KernelBlock.lean, KernelArray.lean); the reference's result read at an index
    is the normalise-first form of the same row (RefValue.lean); under the precondition every entry is a real
    number (Finite.lean), and on real entries the two forms of a row agree (LibAttnRow.lean: the row sum is
    positive, its reciprocal is a nonnegative real, and such a factor comes out of a finite sum of products).
-/
import proofs.«427247_j67525475828089_3_alg».proof.Defs
import proofs.«427247_j67525475828089_3_alg».proof.Proof.Gen.Kernel
import proofs.«427247_j67525475828089_3_alg».proof.Proof.Gen.Kernel.Skeleton
import proofs.«427247_j67525475828089_3_alg».proof.Proof.Gen.Kernel.Launch
import proofs.«427247_j67525475828089_3_alg».proof.Proof.Gen.Kernel.Points
import proofs.«427247_j67525475828089_3_alg».proof.Proof.Gen.Kernel.Frame
import proofs.«427247_j67525475828089_3_alg».proof.Proof.Gen.KernelIdeal
import proofs.«427247_j67525475828089_3_alg».proof.Proof.Gen.KernelIdeal.Skeleton
import proofs.«427247_j67525475828089_3_alg».proof.Proof.Gen.KernelIdeal.Launch
import proofs.«427247_j67525475828089_3_alg».proof.Proof.Gen.KernelIdeal.Points
import proofs.«427247_j67525475828089_3_alg».proof.Proof.Gen.KernelIdeal.Frame
import proofs.«427247_j67525475828089_3_alg».proof.Proof.Gen.ReferenceIdeal
import proofs.«427247_j67525475828089_3_alg».proof.Proof.Gen.Pre_finite_inputs
import proofs.«427247_j67525475828089_3_alg».proof.Proof.Gen.KernelIdeal.Value
import proofs.«427247_j67525475828089_3_alg».proof.Proof.Gen.ReferenceIdeal.Run
import proofs.«427247_j67525475828089_3_alg».proof.Proof.Gen.ReferenceIdeal.Read
import proofs.«427247_j67525475828089_3_alg».proof.Proof.KernelArray
import proofs.«427247_j67525475828089_3_alg».proof.Proof.RefValue
import proofs.«427247_j67525475828089_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.Attn

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two inputs both programs end with `attn` of the inputs: the kernel's array is
    that function block by block, and the reference's entry `(b, j, d)` is the normalise-first form of row `j` of
    batch `b`, which on the real entries the precondition grants is the kernel's normalise-once form. -/
theorem algebraic : Cert.algebraic_KernelIdeal_ReferenceIdeal := by
  intro m ρ m' ρ' hpre hagree
  refine ⟨fun c => attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v12_eq]
  obtain ⟨hE, hD⟩ := Cert.Pre_finite_inputs.Finite.all_real _ _ (hpre c)
  funext i
  obtain ⟨b, j, d, rfl⟩ : ∃ (b : Fin 8) (j : Fin 4096) (d : Fin 256), i = ix3 b j d := ⟨i 0, i 1, i 2, eq_ix3 i⟩
  rw [Cert.ReferenceIdeal.RefValue.result_at]
  exact (attn_eq_rowRef _ _ hE hD b j d).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
